-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S8192x8192 : Shape := ⟨2, ![8192, 8192]⟩
abbrev S1024x256 : Shape := ⟨2, ![1024, 256]⟩
abbrev S512x256 : Shape := ⟨2, ![512, 256]⟩
abbrev S1024x512 : Shape := ⟨2, ![1024, 512]⟩
abbrev S1024 : Shape := ⟨1, ![1024]⟩
abbrev S1024x1 : Shape := ⟨2, ![1024, 1]⟩
abbrev S512 : Shape := ⟨1, ![512]⟩
abbrev S512x1 : Shape := ⟨2, ![512, 1]⟩
abbrev S1x512 : Shape := ⟨2, ![1, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S512x256, .f32⟩
  | .local _ .vmem, ⟨3, _⟩ => ⟨S512x256, .f32⟩
  | .local _ .vmem, ⟨4, _⟩ => ⟨S1024x512, .f32⟩
  | .local _ .vmem, ⟨5, _⟩ => ⟨S1024x512, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x256_S1024x256_0_0 : ∀ a, (![0, 0] : Fin 2 → Nat) a + S1024x256.size a ≤ S1024x256.size a
  h_S1024x256 : 0 < S1024x256.numel
  inb_S512x256_S512x256_0_0 : ∀ a, (![0, 0] : Fin 2 → Nat) a + S512x256.size a ≤ S512x256.size a
  h_S512x256 : 0 < S512x256.numel
  reduces_S1024x256_S1024 : S1024x256.Reduces [1] S1024
  shapeCasts_S1024_S1024x1 : S1024.ShapeCasts S1024x1
  reduces_S512x256_S512 : S512x256.Reduces [1] S512
  shapeCasts_S512_S512x1 : S512.ShapeCasts S512x1
  transposes_S512x1_p1_0_S1x512 : S512x1.Transposes [1, 0] S1x512
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x256_S512x256_S1024x512_1_1_0_0_n_n_wf : DotDims.WF S1024x256 S512x256 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x8192.size a
  hwx0_2 : ∀ i : grid0.Coords, EltTy.bits .f32 = 32 ∨ (Rect.block (s := S8192x8192) S1024x512.size (cc0_transform_2 i) (hinb0_2 i)).WholeWords (EltTy.packing .f32)

variable [Facts₀]

def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 32
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S256x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S8192x8192, .f32⟩
  | .hbm, ⟨31, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Spec.lean ====
/-
  The masked negative Euclidean distance between the rows of two matrices, as ONE function of the matrices.

  For a row `r` of the first matrix and a row `s` of the second (each of 256 entries) three sums are taken:
  `Σ_k r_k²`, `Σ_k s_k²` and `Σ_k r_k s_k`. The squared distance is formed by the Gram identity,
  `(|r|² + |s|²) − 2 (r · s)`, clipped below at `0`; the entry is minus its square root, and an entry below the
  threshold `−8` (half the way from `−√256` to `0`) is replaced by `−∞`. Everything is read over the extended
  reals, every operation the exact one. The float words `2`, `0`, `−8`, `−∞` are kept as words: both programs
  carry the same ones, so they are never evaluated, save the zero that a negation is subtracted from.
-/
import Idealize.ShloMosaic.PureOps.Ideal
import Idealize.ShloMosaic.PureOps.Ideal.Laws
import Idealize.ShloMosaic.Lib.ValueIdx

noncomputable section

namespace Cert.HardSim

open Idealize.ShloMosaic Idealize.ShloMosaic.ValueIdx

/-- The sum of the squares of a row. -/
def sqNorm (r : Fin 256 → EReal) : EReal := ∑ k : Fin 256, r k * r k

/-- The inner product of two rows. -/
def dotRow (r s : Fin 256 → EReal) : EReal := ∑ k : Fin 256, r k * s k

/-- Minus the root of the clipped squared distance, from the three sums `a = |r|²`, `b = |s|²`, `g = r · s`. -/
def negRoot (a b g : EReal) : EReal :=
  -(Ideal.sqrt (max (a + b - (Ideal.ofBits .f32 0x40000000#32 : EReal) * g) (Ideal.ofBits .f32 0x00000000#32 : EReal)))

/-- The threshold: a similarity below `−8` becomes `−∞`, any other is kept. -/
def threshold (s : EReal) : EReal :=
  Scalar.select (Ideal.cmp .olt s (Ideal.ofBits .f32 0xC1000000#32 : EReal)) (Ideal.ofBits .f32 0xFF800000#32 : EReal) s

/-- One entry of the result from the three sums. -/
def entry (a b g : EReal) : EReal := threshold (negRoot a b g)

/-- Row `p` of a matrix with 256 columns. -/
def row {n : Nat} (x : FVec Ideal ⟨2, ![n, 256]⟩ .f32) (p : Fin n) : Fin 256 → EReal := fun k => x (ix2 p k)

/-- THE RESULT: entry `(p, q)` is the thresholded negative distance between row `p` of `x` and row `q` of `y`. -/
def G (x y : FVec Ideal ⟨2, ![8192, 256]⟩ .f32) : FVec Ideal ⟨2, ![8192, 8192]⟩ .f32 := fun i =>
  entry (sqNorm (row x (i 0))) (sqNorm (row y (i 1))) (dotRow (row x (i 0)) (row y (i 1)))

/-- Subtracting from the zero word is negation, on every extended real (`0 − s = 0 + (−s) = −s`, the infinities
    included). -/
theorem zeroWord_sub (s : EReal) : (Ideal.ofBits .f32 0x00000000#32 : EReal) - s = -s := by
  rw [Ideal.ofBits_zero_f32, zero_sub]

/-- A sum that starts from the zero word is the plain sum. -/
theorem zeroWord_add (s : EReal) : (Ideal.ofBits .f32 0x00000000#32 : EReal) + s = s := by
  rw [Ideal.ofBits_zero_f32, zero_add]

end Cert.HardSim

end
-- ==== Proof.RefIsSpec.lean ====
/-
  The reference computes the masked negative distance.

  Its program forms the two vectors of row sums of squares (each a host sum that starts from the zero word), lays
  the first out as a column and the second as a row, broadcasts both to the square, adds, subtracts twice the
  product of the first matrix with the transpose of the second, clips at zero, takes the root, negates, compares
  with `−8` and selects `−∞`. Read at an index `(p, q)` each layout step only renames the index, the host sum is
  the zero word plus the sum over the row, and the product is the sum over `k` of `x[p,k] · y[q,k]`: the three sums
  of the specification, put through the same scalar operations.
-/
import proofs.«156706_j27762668601763_1_alg».proof.Proof.Gen.ReferenceIdeal.Read
import proofs.«156706_j27762668601763_1_alg».proof.Proof.Spec

noncomputable section

namespace Cert.HardSim.Ref

open Cert.ReferenceIdeal Cert.ReferenceIdeal.Read Idealize.ShloMosaic Idealize.ShloMosaic.ValueIdx Cert.HardSim

/-- A matrix of the reference's argument type. -/
abbrev Arg := (⟨S8192x256, .f32⟩ : BufTy).Contents (Elt Ideal)

/-- The sums of squares of the first matrix's rows. -/
theorem rowSq0 (x0 : Arg) (i : S8192.Idx) : val_main_v1 (F := Ideal) x0 i = sqNorm (row (n := 8192) x0 (i 0)) := by
  rw [val_main_v1_apply]
  refine (zeroWord_add _).trans ?_
  refine Finset.sum_congr rfl fun k _ => ?_
  have e : idx_main_v1 i k = ix2 (i 0) k := funext fun a => Fin.ext (by match a with | ⟨0, _⟩ => rfl | ⟨1, _⟩ => rfl)
  exact congrArg (fun j => x0 j * x0 j) e

/-- The sums of squares of the second matrix's rows. -/
theorem rowSq1 (x1 : Arg) (i : S8192.Idx) : val_main_v4 (F := Ideal) x1 i = sqNorm (row (n := 8192) x1 (i 0)) := by
  rw [val_main_v4_apply]
  refine (zeroWord_add _).trans ?_
  refine Finset.sum_congr rfl fun k _ => ?_
  have e : idx_main_v4 i k = ix2 (i 0) k := funext fun a => Fin.ext (by match a with | ⟨0, _⟩ => rfl | ⟨1, _⟩ => rfl)
  exact congrArg (fun j => x1 j * x1 j) e

/-- The column of the first sums, broadcast along the rows of the square: entry `(p, q)` is row `p`'s sum. -/
theorem colBroadcast (x0 : Arg) (i : S8192x8192.Idx) :
    val_main_v7 (F := Ideal) x0 i = sqNorm (row (n := 8192) x0 (i 0)) := by
  rw [val_main_v7_apply, val_main_v2_apply, rowSq0]
  rfl

/-- The row of the second sums, broadcast along the columns of the square: entry `(p, q)` is row `q`'s sum. -/
theorem rowBroadcast (x1 : Arg) (i : S8192x8192.Idx) :
    val_main_v8 (F := Ideal) x1 i = sqNorm (row (n := 8192) x1 (i 1)) := by
  rw [val_main_v8_apply, val_main_v6_apply, val_main_v5_apply, rowSq1]
  rfl

/-- The product with the transpose: entry `(p, q)` is the inner product of row `p` of the first matrix with row
    `q` of the second. -/
theorem gram (x0 x1 : Arg) (i : S8192x8192.Idx) :
    val_main_v11 (F := Ideal) x0 x1 i = dotRow (row (n := 8192) x0 (i 0)) (row (n := 8192) x1 (i 1)) := by
  rw [val_main_v11_apply]
  refine Finset.sum_congr rfl fun k _ => ?_
  rw [val_main_v10_apply]
  have el : lidx_main_v11 i k = ix2 (i 0) k := funext fun a => Fin.ext (by match a with | ⟨0, _⟩ => rfl | ⟨1, _⟩ => rfl)
  have er : idx_main_v10 (ridx_main_v11 i k) = ix2 (i 1) k := funext fun a => Fin.ext (by match a with | ⟨0, _⟩ => rfl | ⟨1, _⟩ => rfl)
  rw [el, er]
  rfl

/-- Minus the root of the clipped squared distance, as the reference forms it. -/
theorem negRoot_ref (x0 x1 : Arg) (i : S8192x8192.Idx) :
    val_main_v18 (F := Ideal) x0 x1 i
      = negRoot (sqNorm (row (n := 8192) x0 (i 0))) (sqNorm (row (n := 8192) x1 (i 1)))
          (dotRow (row (n := 8192) x0 (i 0)) (row (n := 8192) x1 (i 1))) := by
  rw [val_main_v18_apply, val_main_v17_apply, val_main_v16_apply, val_main_v14_apply, val_main_v9_apply,
    val_main_v13_apply, val_main_v12_apply, val_main_v15_apply, colBroadcast, rowBroadcast, gram]
  rfl

/-- THE REFERENCE'S RESULT is the specification's function of its two arguments. -/
theorem result_eq (x0 x1 : Arg) : val_main_v21 (F := Ideal) x0 x1 = G x0 x1 := by
  funext i
  rw [val_main_v21_apply, val_main_v20_apply, val_main_v19_apply, val_main_call0_v1_apply, negRoot_ref]
  rfl

end Cert.HardSim.Ref

end
-- ==== Proof.Body.lean ====
/-
  What the kernel body computes from one block of each matrix, read at an entry.

  The body holds a block of 1024 rows of the first matrix and a block of 512 rows of the second. It sums the squares
  along each row of either block (a lane sum from the zero word), turns the first vector of sums into a column and
  the second into a row, spreads both over the 1024 × 512 tile, and subtracts twice the product of the first block
  with the second's transpose (a matrix product into a zero accumulator). At entry `(p, q)` of the tile the column
  gives row `p`'s sum, the row gives row `q`'s, and the product is the sum over `k` of `x[p,k] · y[q,k]`. The
  root is negated by subtracting it from the zero word, which on the extended reals is negation. So the tile's
  entry is the specification's `entry` of the three sums of row `p` of the first block and row `q` of the second.
-/
import proofs.«156706_j27762668601763_1_alg».proof.Proof.Gen.KernelIdeal.Skeleton
import proofs.«156706_j27762668601763_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.HardSim.Body

open Cert.KernelIdeal Cert.KernelIdeal.Gen Idealize.ShloMosaic Idealize.ShloMosaic.ValueIdx Cert.HardSim

/-! ## The lane sums -/

/-- A lane sum along the rows of a 1024 × 256 block, from the zero word: at `p` the sum over row `p`. -/
theorem laneSum1024 (v : FVec Ideal S1024x256 .f32) (h : S1024x256.Reduces [1] S1024) (hφ : FKind.Formats .f32)
    (hacc : (0x00000000#32 : BitVec 32) = 0x00000000#32) (p : Fin 1024) :
    multiReduction .add [1] S1024 v 0x00000000#32 h hφ hacc (ix1 p) = ∑ k : Fin 256, v (ix2 p k) := by
  refine (Ideal.multiReduction_add_single v 0x00000000#32 h hφ hacc (ix1 p)).trans ?_
  refine Finset.sum_congr rfl fun k _ => ?_
  exact congrArg v (funext fun a => Fin.ext (by match a with | ⟨0, _⟩ => rfl | ⟨1, _⟩ => rfl))

/-- The same along the rows of a 512 × 256 block. -/
theorem laneSum512 (v : FVec Ideal S512x256 .f32) (h : S512x256.Reduces [1] S512) (hφ : FKind.Formats .f32)
    (hacc : (0x00000000#32 : BitVec 32) = 0x00000000#32) (q : Fin 512) :
    multiReduction .add [1] S512 v 0x00000000#32 h hφ hacc (ix1 q) = ∑ k : Fin 256, v (ix2 q k) := by
  refine (Ideal.multiReduction_add_single v 0x00000000#32 h hφ hacc (ix1 q)).trans ?_
  refine Finset.sum_congr rfl fun k _ => ?_
  exact congrArg v (funext fun a => Fin.ext (by match a with | ⟨0, _⟩ => rfl | ⟨1, _⟩ => rfl))

/-! ## The two layouts -/

/-- A vector of 1024 sums made a column and spread over the tile: entry `(p, q)` is the `p`-th sum. -/
theorem columnSpread (v : FVec Ideal S1024 .f32) (h1 : S1024.ShapeCasts S1024x1) (h2 : S1024x1.Broadcasts S1024x512)
    (p : Fin 1024) (q : Fin 512) :
    broadcastTo S1024x512 (shapeCast S1024x1 v h1) h2 (ix2 p q) = v (ix1 p) := by
  refine (broadcastTo_apply _ h2 (ix2 p q) (ix2 p (0 : Fin 1)) fun a => ?_).trans ?_
  · match a with
    | ⟨0, _⟩ => show p.val = if (1024 : Nat) = 1 then 0 else p.val; rw [if_neg (by decide)]
    | ⟨1, _⟩ => show 0 = if (1 : Nat) = 1 then 0 else q.val; rw [if_pos rfl]
  · refine shapeCast_apply v h1 (ix2 p (0 : Fin 1)) (ix1 p) ?_
    rw [Shape.rowMajor_val_one, Shape.rowMajor_val_two]
    show p.val = p.val * 1 + 0
    omega

/-- A vector of 512 sums made a column, transposed to a row and spread over the tile: entry `(p, q)` is the `q`-th
    sum. -/
theorem rowSpread (v : FVec Ideal S512 .f32) (h1 : S512.ShapeCasts S512x1) (h2 : S512x1.Transposes [1, 0] S1x512)
    (h3 : S1x512.Broadcasts S1024x512) (p : Fin 1024) (q : Fin 512) :
    broadcastTo S1024x512 (transpose S1x512 [1, 0] (shapeCast S512x1 v h1) h2) h3 (ix2 p q) = v (ix1 q) := by
  refine (broadcastTo_1b_ab_apply _ h3 p q).trans ?_
  refine (transpose_ix2_apply _ h2 (0 : Fin 1) q).trans ?_
  refine shapeCast_apply v h1 (ix2 q (0 : Fin 1)) (ix1 q) ?_
  rw [Shape.rowMajor_val_one, Shape.rowMajor_val_two]
  show q.val = q.val * 1 + 0
  omega

/-! ## The matrix product -/

theorem lhs_axis0 (i : S1024x512.Idx) (k : dot_S1024x256_S512x256_S1024x512_1_1_0_0_n_n.contr.Idx) :
    (dot_S1024x256_S512x256_S1024x512_1_1_0_0_n_n.lhsIdx i k 0).val = (i 0).val := by
  unfold DotDims.lhsIdx
  rw [dif_neg (show ¬(0 : Fin S1024x256.rank) ∈ dot_S1024x256_S512x256_S1024x512_1_1_0_0_n_n.lhsBatch by decide), dif_pos (show (0 : Fin S1024x256.rank) ∈ dot_S1024x256_S512x256_S1024x512_1_1_0_0_n_n.lhsNonContracting by decide)]
  rfl
theorem lhs_axis1 (i : S1024x512.Idx) (k : dot_S1024x256_S512x256_S1024x512_1_1_0_0_n_n.contr.Idx) :
    (dot_S1024x256_S512x256_S1024x512_1_1_0_0_n_n.lhsIdx i k 1).val = (k ⟨0, by decide⟩).val :=
  dot_S1024x256_S512x256_S1024x512_1_1_0_0_n_n.lhsIdx_val_of_single rfl i k
theorem rhs_axis0 (i : S1024x512.Idx) (k : dot_S1024x256_S512x256_S1024x512_1_1_0_0_n_n.contr.Idx) :
    (dot_S1024x256_S512x256_S1024x512_1_1_0_0_n_n.rhsIdx i k 0).val = (i 1).val := by
  unfold DotDims.rhsIdx
  rw [dif_neg (show ¬(0 : Fin S512x256.rank) ∈ dot_S1024x256_S512x256_S1024x512_1_1_0_0_n_n.rhsBatch by decide), dif_pos (show (0 : Fin S512x256.rank) ∈ dot_S1024x256_S512x256_S1024x512_1_1_0_0_n_n.rhsNonContracting by decide)]
  rfl
theorem rhs_axis1 (i : S1024x512.Idx) (k : dot_S1024x256_S512x256_S1024x512_1_1_0_0_n_n.contr.Idx) :
    (dot_S1024x256_S512x256_S1024x512_1_1_0_0_n_n.rhsIdx i k 1).val = (k ⟨0, by decide⟩).val :=
  dot_S1024x256_S512x256_S1024x512_1_1_0_0_n_n.rhsIdx_val_of_single rfl i k

/-- The product of the first block with the transpose of the second, into a zero accumulator: entry `(p, q)` is the
    sum over `k` of `x[p,k] · y[q,k]` (both operands are contracted along their columns). -/
theorem product (x0 : FVec Ideal S1024x256 .f32) (x1 : FVec Ideal S512x256 .f32) (prec : Option ContractPrecision)
    (p : Fin 1024) (q : Fin 512) :
    matmul dot_S1024x256_S512x256_S1024x512_1_1_0_0_n_n prec x0 x1 (constant S1024x512 .f32 0x00000000#32) (ix2 p q)
      = ∑ k : Fin 256, x0 (ix2 p k) * x1 (ix2 q k) := by
  simp only [matmul]
  rw [Ideal.matmul_constant_zero_apply, ← Equiv.sum_comp (ValueIdx.contrEquiv1 dot_S1024x256_S512x256_S1024x512_1_1_0_0_n_n 256 rfl rfl).symm]
  refine Finset.sum_congr rfl fun k _ => ?_
  have hk := ValueIdx.contrEquiv1_symm_val dot_S1024x256_S512x256_S1024x512_1_1_0_0_n_n 256 rfl rfl k
  have el : dot_S1024x256_S512x256_S1024x512_1_1_0_0_n_n.lhsIdx (ix2 p q) ((ValueIdx.contrEquiv1 dot_S1024x256_S512x256_S1024x512_1_1_0_0_n_n 256 rfl rfl).symm k) = ix2 p k := funext fun a => Fin.ext (by
    match a with
    | ⟨0, _⟩ => exact lhs_axis0 _ _
    | ⟨1, _⟩ => exact (lhs_axis1 _ _).trans hk)
  have er : dot_S1024x256_S512x256_S1024x512_1_1_0_0_n_n.rhsIdx (ix2 p q) ((ValueIdx.contrEquiv1 dot_S1024x256_S512x256_S1024x512_1_1_0_0_n_n 256 rfl rfl).symm k) = ix2 q k := funext fun a => Fin.ext (by
    match a with
    | ⟨0, _⟩ => exact rhs_axis0 _ _
    | ⟨1, _⟩ => exact (rhs_axis1 _ _).trans hk)
  rw [el, er]

/-! ## The pointwise tail -/

/-- From three tiles `A`, `B`, `C` the body forms, entry by entry, `(A + B) − 2·C`, clips it at zero, takes the root,
    subtracts it from the zero word, and thresholds: that is `entry` of the three entries, the subtraction from zero
    being negation. -/
theorem tail_apply (A B C : FVec Ideal S1024x512 .f32) (i : S1024x512.Idx) :
    select
      (cmpf .olt
        (subf (broadcast S1024x512 (FloatOps.ofBits .f32 0x00000000#32))
          (sqrt (maximumf (subf (addf A B) (mulf (broadcast S1024x512 (FloatOps.ofBits .f32 0x40000000#32)) C))
            (broadcast S1024x512 (FloatOps.ofBits .f32 0x00000000#32)))))
        (broadcast S1024x512 (FloatOps.ofBits .f32 0xC1000000#32)))
      (broadcast S1024x512 (FloatOps.ofBits .f32 0xFF800000#32))
      (subf (broadcast S1024x512 (FloatOps.ofBits .f32 0x00000000#32))
        (sqrt (maximumf (subf (addf A B) (mulf (broadcast S1024x512 (FloatOps.ofBits .f32 0x40000000#32)) C))
          (broadcast S1024x512 (FloatOps.ofBits .f32 0x00000000#32))))) i
      = entry (A i) (B i) (C i) := by
  show threshold ((Ideal.ofBits .f32 0x00000000#32 : EReal)
      - Ideal.sqrt (max (A i + B i - (Ideal.ofBits .f32 0x40000000#32 : EReal) * C i) (Ideal.ofBits .f32 0x00000000#32 : EReal)))
    = threshold (negRoot (A i) (B i) (C i))
  rw [zeroWord_sub]
  rfl

/-! ## The payload at an entry -/

/-- THE TILE's entry `(p, q)`: the thresholded negative distance between row `p` of the first block and row `q` of
    the second. -/
theorem payload_apply (x0 : FVec Ideal S1024x256 .f32) (x1 : FVec Ideal S512x256 .f32) (p : Fin 1024) (q : Fin 512) :
    k0_pay1 (F := Ideal) x0 x1 (ix2 p q)
      = entry (sqNorm (row (n := 1024) x0 p)) (sqNorm (row (n := 512) x1 q)) (dotRow (row (n := 1024) x0 p) (row (n := 512) x1 q)) := by
  unfold k0_pay1
  dsimp only
  refine (tail_apply _ _ _ (ix2 p q)).trans ?_
  rw [columnSpread, rowSpread, laneSum1024, laneSum512, product]
  rfl

end Cert.HardSim.Body

end
-- ==== Proof.Tiles.lean ====
/-
  From the tiles to the whole result.

  The grid has 8 × 16 points. At point `(a, b)` the body is given rows `1024 a … 1024 a + 1023` of the first matrix
  (all 256 columns) and rows `512 b … 512 b + 511` of the second, and its tile is written back to rows
  `1024 a …`, columns `512 b …` of the result. So entry `(p, q)` of the tile is entry `(1024 a + p, 512 b + q)` of the
  result, and it is computed from row `1024 a + p` of the first matrix and row `512 b + q` of the second: the tile is
  the block of the specification's function `G`. The 128 tiles cover the 8192 × 8192 result (entry `(r, s)` lies in the
  tile of point `(r / 1024, s / 512)`), so after the run the result array is `G` of the two arguments.
-/
import proofs.«156706_j27762668601763_1_alg».proof.Proof.Gen.KernelIdeal.Value
import proofs.«156706_j27762668601763_1_alg».proof.Proof.Body
import proofs.«156706_j27762668601763_1_alg».proof.Proof.Spec

set_option maxRecDepth 16384

noncomputable section

namespace Cert.HardSim.Tiles

open Cert.KernelIdeal Cert.KernelIdeal.Gen Idealize.ShloMosaic Idealize.ShloMosaic.TcCoe Idealize.SL.Sem
open Idealize.ShloMosaic.ValueIdx Cert.HardSim
open Idealize.ShloMosaic.Pipeline (Dat)

variable (m : (ℓ : Loc nD τ sig) → Buf (Elt Ideal) ℓ) (ρ : Dev nD → PrngReg)

theorem zeroOffsets : (![0, 0] : Fin 2 → Nat) = fun _ => 0 := funext fun a => by fin_cases a <;> rfl

/-- The three index maps over the grid: the first matrix's block row is the tile's block row, the second matrix's
    block row is the tile's block column, neither input is cut along its columns, and the tile's block indices stay
    below 8 and 16. -/
theorem index_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7
    ∧ win0_2.index t (1 : Fin 2) ≤ 15 :=
  (by decide +kernel : ∀ t : Fin grid0.N, _)

/-- Every pair of a block row and a block column is some point's. -/
theorem index_onto : ∀ (a : Fin 8) (b : Fin 16), ∃ t : Fin cfg0.N, win0_2.index t = ![a.val, b.val] :=
  (by decide +kernel : ∀ (a : Fin 8) (b : Fin 16), ∃ t : Fin grid0.N, win0_2.index t = ![a.val, b.val])

/-- WHAT POINT `t` WRITES BACK is block `t` of `G` of the two argument arrays. -/
theorem flushed_eq (c : Dev nD) (t : Fin cfg0.N) :
    (dats m 0 c).flushed 2 t = ((cfg0.win 2).blk t).view.read (Elt Ideal) (G (V m c main_arg0) (V m c main_arg1)) := by
  rw [Cert.KernelIdeal.Value.flushed2]
  unfold out0_2
  rw [View.canon_unit_zero zeroOffsets]
  simp only [View.ld_unit_zero (S := S1024x256) zeroOffsets, View.ld_unit_zero (S := S512x256) zeroOffsets]
  obtain ⟨e0, e1, e2, e3, e4, e5⟩ := index_facts t
  funext j
  obtain ⟨p, q, rfl⟩ : ∃ (p : Fin 1024) (q : Fin 512), j = ix2 p q := ⟨j 0, j 1, eq_ix2 j⟩
  show k0_pay1 (F := Ideal) (iblk m c 0 t) (iblk m c 1 t) (ix2 p q)
    = G (V m c main_arg0) (V m c main_arg1) (((cfg0.win 2).blk t).view.emb (ix2 p q))
  refine (Body.payload_apply (iblk m c 0 t) (iblk m c 1 t) p q).trans ?_
  -- the two rows the entry is computed from
  have r0 : row (n := 1024) (iblk m c 0 t) p = row (n := 8192) (V m c main_arg0) ((((cfg0.win 2).blk t).view.emb (ix2 p q)) 0) := by
    funext k
    show V m c main_arg0 (((cfg0.win 0).blk t).view.emb (ix2 p k)) = V m c main_arg0 (ix2 ((((cfg0.win 2).blk t).view.emb (ix2 p q)) 0) k)
    refine congrArg (V m c main_arg0) (funext fun a => Fin.ext ?_)
    match a with
    | ⟨0, _⟩ => show win0_0.index t (0 : Fin 2) * 1024 + 1 * p.val = win0_2.index t (0 : Fin 2) * 1024 + 1 * p.val; omega
    | ⟨1, _⟩ => show win0_0.index t (1 : Fin 2) * 256 + 1 * k.val = k.val; omega
  have r1 : row (n := 512) (iblk m c 1 t) q = row (n := 8192) (V m c main_arg1) ((((cfg0.win 2).blk t).view.emb (ix2 p q)) 1) := by
    funext k
    show V m c main_arg1 (((cfg0.win 1).blk t).view.emb (ix2 q k)) = V m c main_arg1 (ix2 ((((cfg0.win 2).blk t).view.emb (ix2 p q)) 1) k)
    refine congrArg (V m c main_arg1) (funext fun a => Fin.ext ?_)
    match a with
    | ⟨0, _⟩ => show win0_1.index t (0 : Fin 2) * 512 + 1 * q.val = win0_2.index t (1 : Fin 2) * 512 + 1 * q.val; omega
    | ⟨1, _⟩ => show win0_1.index t (1 : Fin 2) * 256 + 1 * k.val = k.val; omega
  rw [r0, r1]
  rfl

/-- An index of the result is in point `t`'s tile iff each coordinate is in the tile's range on its axis. -/
theorem mem_tile (t : Fin cfg0.N) (i : S8192x8192.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0).slice (win0_2.rect t)).set ↔ _
  rw [View.set_slice_whole, Rect.mem_set_unit]
  exact Iff.rfl

/-- THE TILES COVER THE RESULT: entry `(r, s)` lies in the tile of the point with block row `r / 1024` and block column
    `s / 512`. -/
theorem cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := index_onto ⟨(i 0).val / 1024, by omega⟩ ⟨(i 1).val / 512, by omega⟩
  have q0 : win0_2.index t (0 : Fin 2) = (i 0).val / 1024 := congrFun ht 0
  have q1 : win0_2.index t (1 : Fin 2) = (i 1).val / 512 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- THE RESULT ARRAY after the run is `G` of the two argument arrays. -/
theorem final (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) cover

/-- The kernel's run: the result at `G` of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.HardSim.Tiles

end
-- ==== Proof.lean ====
/-
  The masked negative Euclidean distance: a tiled kernel against its whole-array reference, over the extended reals.

  For two matrices `x`, `y` of 8192 rows and 256 columns both programs compute, for every pair of rows `(p, q)`,
      d² = (Σ_k x[p,k]² + Σ_k y[q,k]²) − 2 · Σ_k x[p,k] y[q,k],     s = −√(max(d², 0)),
  and return `−∞` where `s < −8` and `s` elsewhere. The reference does it on whole arrays; the kernel on an 8 × 16 grid
  of 1024 × 512 tiles, each from a block of 1024 rows of `x` and a block of 512 rows of `y`, the full 256 columns in
  every block, so no sum is split between tiles.

  The two sides apply the same operations to the same three sums in the same order, with the same float words
  (`2`, `0`, `−8`, `−∞`), so no algebraic law and no finiteness is needed, only three observations:
  the kernel's lane sum and matrix product and the reference's host sum and `dot_general` are plain sums over `k`
  (the host sum starting from the zero word, which adds nothing); the kernel negates by subtracting from the zero
  word and the reference by `negate`, and `0 − s = −s` on every extended real; and the layout steps on either side
  (column, row, transpose, broadcast) only rename indices.

  * Spec.lean      — the function `G` of the two matrices, entry by entry.
  * RefIsSpec.lean — the reference's result is `G` (read one operation at a time from the generated read-back).
  * Body.lean      — the kernel body's tile at entry `(p, q)` is `G`'s entry for row `p` of its first block and row `q`
                     of its second.
  * Tiles.lean     — each tile is a block of `G`, the tiles cover the result, so the kernel's result is `G`.
  The three frames are the generated ones (the reference's is its generated run with the result dropped); the
  idealization rewrote nothing, so `preserves` has nothing to state.
-/
import proofs.«156706_j27762668601763_1_alg».proof.Defs
import proofs.«156706_j27762668601763_1_alg».proof.Proof.Gen.Kernel
import proofs.«156706_j27762668601763_1_alg».proof.Proof.Gen.Kernel.Skeleton
import proofs.«156706_j27762668601763_1_alg».proof.Proof.Gen.Kernel.Launch
import proofs.«156706_j27762668601763_1_alg».proof.Proof.Gen.Kernel.Points
import proofs.«156706_j27762668601763_1_alg».proof.Proof.Gen.Kernel.Frame
import proofs.«156706_j27762668601763_1_alg».proof.Proof.Gen.KernelIdeal
import proofs.«156706_j27762668601763_1_alg».proof.Proof.Gen.KernelIdeal.Skeleton
import proofs.«156706_j27762668601763_1_alg».proof.Proof.Gen.KernelIdeal.Launch
import proofs.«156706_j27762668601763_1_alg».proof.Proof.Gen.KernelIdeal.Points
import proofs.«156706_j27762668601763_1_alg».proof.Proof.Gen.KernelIdeal.Frame
import proofs.«156706_j27762668601763_1_alg».proof.Proof.Gen.ReferenceIdeal
import proofs.«156706_j27762668601763_1_alg».proof.Proof.Gen.Pre_finite_inputs
import proofs.«156706_j27762668601763_1_alg».proof.Proof.Gen.KernelIdeal.Value
import proofs.«156706_j27762668601763_1_alg».proof.Proof.Gen.ReferenceIdeal.Run
import proofs.«156706_j27762668601763_1_alg».proof.Proof.Gen.ReferenceIdeal.Read
import proofs.«156706_j27762668601763_1_alg».proof.Proof.RefIsSpec
import proofs.«156706_j27762668601763_1_alg».proof.Proof.Tiles
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result array and the reference's both end at `G` of the arguments. -/
theorem algebraic : Cert.algebraic_KernelIdeal_ReferenceIdeal := by
  intro m ρ m' ρ' _ hagree
  refine ⟨_, Cert.HardSim.Tiles.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v21_eq _ _).trans (Cert.HardSim.Ref.result_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
